-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 54
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the two-layer graph network, at the extended reals.

  One layer sends the node features `X` (a row per node) and the neighbourhood means `A` to
  `(1 · X + A) · W + b`: entry `(r, q)` is the sum over the 128 features `k` of
  `(1 · X[r, k] + A[r, k]) · W[k, q]`, plus `b[q]`. The first layer is followed by `max(·, 0)`.

  The neighbourhood mean divides a node's summed messages `m` by `max(deg, 1)`.  One program
  multiplies by the reciprocal `1 / max(deg, 1)`, the other divides.  On the extended reals the
  quotient by a nonzero `y` is `m · y⁻¹`, and `max(d, 1) ≥ 1` is never zero, so
  `m · (1 / y) = m · (1 · y⁻¹) = m · y⁻¹ = m / y` for EVERY extended real `m` and `d`: no
  finiteness is used.
-/
import Idealize.ShloMosaic.PureOps.Ideal
import Idealize.ShloMosaic.PureOps.Ideal.Laws
import Idealize.ShloMosaic.Lib.ValueIdx

noncomputable section

open scoped BigOperators

namespace Cert.Gin

open Idealize.ShloMosaic Idealize.ShloMosaic.ValueIdx

/-- The literal `1.0` both programs scale the features by, and the literal `0.0` of the rectifier. -/
abbrev one : EReal := Ideal.ofBits .f32 0x3F800000#32
abbrev zero : EReal := Ideal.ofBits .f32 0x00000000#32

/-- The word `0x3F800000` denotes the real number one. -/
theorem one_eq : one = 1 := by
  simp [one, Ideal.ofBits, Ideal.ieee, -EReal.coe_mul]; norm_num

/-- Entry `q` of one output row: the row `xr` of the features and the row `ar` of the means against
    column `q` of the weights, plus the bias entry. -/
def linAt (xr ar : Fin 128 → EReal) (W : (⟨2, ![128, 128]⟩ : Shape).Idx → EReal) (bq : EReal) (q : Fin 128) : EReal :=
  (∑ k : Fin 128, (one * xr k + ar k) * W (ix2 k q)) + bq

/-- One layer on the whole node array, index by index (the bias as a one-row array). -/
def lin (X A : (⟨2, ![100000, 128]⟩ : Shape).Idx → EReal) (W : (⟨2, ![128, 128]⟩ : Shape).Idx → EReal)
    (B : (⟨2, ![1, 128]⟩ : Shape).Idx → EReal) : (⟨2, ![100000, 128]⟩ : Shape).Idx → EReal :=
  fun i => linAt (fun k => X (ix2 (i 0) k)) (fun k => A (ix2 (i 0) k)) W (B (ix2 (0 : Fin 1) (i 1))) (i 1)

/-- The rectifier on the whole node array. -/
def relu (H : (⟨2, ![100000, 128]⟩ : Shape).Idx → EReal) : (⟨2, ![100000, 128]⟩ : Shape).Idx → EReal :=
  fun i => max (H i) zero

/-- Multiplying by the reciprocal of `max(d, 1)` is dividing by it, on every extended real. -/
theorem mul_recip_max (m d : EReal) : m * Ideal.div one (max d one) = Ideal.div m (max d one) := by
  have h : max d one ≠ 0 := by
    rw [one_eq]
    exact ne_of_gt (lt_of_lt_of_le zero_lt_one (le_max_right d 1))
  unfold Ideal.div
  rw [if_neg h, if_neg h, one_eq, one_mul]

end Cert.Gin

end
-- ==== Proof.HostValue.lean ====
/-
  The host side of the kernel program: what each pallas_call finds in its input arrays.

  Before the first call the host computes, from the features `x` and the edge lists, the neighbourhood means as
  the summed messages times the reciprocal of the clamped in-degree, and lays the bias out as a one-row array.
  Between the calls it does the same with the first call's result in place of `x`, reusing the reciprocal column
  it computed at the start.  The gather and the scatters are never opened.
  The means so computed equal the quotient form (`aggK_eq_aggDiv`): entry by entry it is the law
  `m · (1 / max(d, 1)) = m / max(d, 1)` of the specification.
-/
import proofs.«168655_j87814901334660_1_alg».proof.Proof.Gen.KernelIdeal.Frame
import proofs.«168655_j87814901334660_1_alg».proof.Proof.Spec
import Idealize.ShloMosaic.Lib.StableHlo.Run
import Idealize.ShloMosaic.Lib.Pipeline.Value
import Idealize.ShloMosaic.Lib.ValueIdx

noncomputable section

namespace Cert.KernelIdeal.GinHost

open Cert.KernelIdeal Cert.KernelIdeal.Gen
open Idealize.ShloMosaic Idealize.ShloMosaic.TcCoe Idealize.ShloMosaic.ValueIdx Idealize.SL.Sem Idealize.ShloMosaic.StableHlo

section Pieces
variable {F : FTy → Type} [FloatOps F]

/-- A node's summed messages: row `src[e]` (negative indices wrapped) of `x` for every edge `e`, added onto node `dst[e]`. -/
def msgSum (x : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- A node's in-degree (a one added per incoming edge), clamped below at one. -/
def degMax (dst : (⟨S1600000, .i32⟩ : BufTy).Contents (Elt F)) : (⟨S100000, .f32⟩ : BufTy).Contents (Elt F) :=
  maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))

/-- The reciprocal of the clamped in-degree, as a column. -/
def recipCol (dst : (⟨S1600000, .i32⟩ : BufTy).Contents (Elt F)) : (⟨S100000x1, .f32⟩ : BufTy).Contents (Elt F) :=
  broadcastInDim S100000x1 ![0] bcast_S100000_S100000x1_0 (Host.divf (broadcastInDim S100000 ![] bcast_S_S100000 (constant S_ .f32 0x3F800000#32)) (degMax (F := F) dst))

/-- The neighbourhood mean as the kernel program spells it: the summed messages times the reciprocal column. -/
def aggK (x : (⟨S100000x128, .f32⟩ : BufTy).Contents (Elt F)) (src dst : (⟨S1600000, .i32⟩ : BufTy).Contents (Elt F)) :
    (⟨S100000x128, .f32⟩ : BufTy).Contents (Elt F) :=
  mulf (msgSum x src dst) (broadcastInDim S100000x128 ![0, 1] bcast_S100000x1_S100000x128_0_1 (recipCol (F := F) dst))

/-- The same mean in quotient form: the summed messages divided by the clamped in-degree. -/
def aggDiv (x : (⟨S100000x128, .f32⟩ : BufTy).Contents (Elt F)) (src dst : (⟨S1600000, .i32⟩ : BufTy).Contents (Elt F)) :
    (⟨S100000x128, .f32⟩ : BufTy).Contents (Elt F) :=
  Host.divf (msgSum x src dst) (broadcastInDim S100000x128 ![0, 1] bcast_S100000x1_S100000x128_0_1 (broadcastInDim S100000x1 ![0] bcast_S100000_S100000x1_0 (degMax (F := F) dst)))

/-- The bias laid out as a one-row array. -/
def biasRow (b : (⟨S128, .f32⟩ : BufTy).Contents (Elt F)) : (⟨S1x128, .f32⟩ : BufTy).Contents (Elt F) :=
  shapeCast S1x128 b shapeCasts_S128_S1x128

end Pieces

/-! ## The stretches read back -/

section Stretches
variable {F : FTy → Type} [FloatOps F]
variable (m : (ℓ : Loc nD τ sig) → Buf (Elt F) ℓ) (ρ : Dev nD → PrngReg)

/-- Entering the first call: the features, the weights, the bias row and the means. -/
theorem entry0_x (c : Dev nD) : V1 m ρ c main_arg0 = m ((c : Thread nD τ).loc main_arg0) := by
  show StableHlo.after hostOps0 (W0 m ρ c) (Proc.devRef .tc main_arg0) = _
  after_results
theorem entry0_w (c : Dev nD) : V1 m ρ c main_arg3 = m ((c : Thread nD τ).loc main_arg3) := by
  show StableHlo.after hostOps0 (W0 m ρ c) (Proc.devRef .tc main_arg3) = _
  after_results
theorem entry0_b (c : Dev nD) : V1 m ρ c main_v21 = biasRow (m ((c : Thread nD τ).loc main_arg4)) := by
  show StableHlo.after hostOps0 (W0 m ρ c) (Proc.devRef .tc main_v21) = _
  after_results
  rfl
set_option maxHeartbeats 2000000 in
theorem entry0_agg (c : Dev nD) : V1 m ρ c main_v20
    = aggK (m ((c : Thread nD τ).loc main_arg0)) (m ((c : Thread nD τ).loc main_arg1)) (m ((c : Thread nD τ).loc main_arg2)) := by
  show StableHlo.after hostOps0 (W0 m ρ c) (Proc.devRef .tc main_v20) = _
  after_results_simp <;> rfl

/-- Leaving the first call: its output array holds what its write-backs left; the edge lists and the reciprocal
    column are as the first stretch left them. -/
theorem exit0_h (c : Dev nD) : W2 m ρ c (Proc.devRef .tc main_v22) = (dat0 (V1 m ρ) c).arrAt 4 cfg0.N := W2_arr m ρ c 4
theorem mid_src (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem mid_dst (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem mid_w (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem mid_b (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
set_option maxHeartbeats 2000000 in
theorem mid_recip (c : Dev nD) : W2 m ρ c (Proc.devRef .tc main_v8) = recipCol (m ((c : Thread nD τ).loc main_arg2)) :=
  (W2_of_ne m ρ c main_v8 (by decide)).trans (by
    show StableHlo.after hostOps0 (W0 m ρ c) (Proc.devRef .tc main_v8) = _
    after_results_simp <;> rfl)

/-- Entering the second call: the first call's output, the second weights, the second bias row, and the means of
    the first call's output. -/
theorem entry1_x (c : Dev nD) : V3 m ρ c main_v22 = (dat0 (V1 m ρ) c).arrAt 4 cfg0.N := by
  show StableHlo.after hostOps1 (W2 m ρ c) (Proc.devRef .tc main_v22) = _
  after_results
  exact exit0_h m ρ c
theorem entry1_w (c : Dev nD) : V3 m ρ c main_arg5 = m ((c : Thread nD τ).loc main_arg5) := by
  show StableHlo.after hostOps1 (W2 m ρ c) (Proc.devRef .tc main_arg5) = _
  after_results
  exact mid_w m ρ c
theorem entry1_b (c : Dev nD) : V3 m ρ c main_v35 = biasRow (m ((c : Thread nD τ).loc main_arg6)) := by
  show StableHlo.after hostOps1 (W2 m ρ c) (Proc.devRef .tc main_v35) = _
  after_results
  rw [mid_b m ρ c]
  rfl
set_option maxHeartbeats 2000000 in
theorem entry1_agg (c : Dev nD) : V3 m ρ c main_v34
    = aggK ((dat0 (V1 m ρ) c).arrAt 4 cfg0.N) (m ((c : Thread nD τ).loc main_arg1)) (m ((c : Thread nD τ).loc main_arg2)) := by
  show StableHlo.after hostOps1 (W2 m ρ c) (Proc.devRef .tc main_v34) = _
  after_results_simp
  rw [exit0_h m ρ c, mid_src m ρ c, mid_dst m ρ c, mid_recip m ρ c]
  rfl

end Stretches

/-! ## The two spellings of the mean agree -/

/-- A column broadcast across the 128 features reads its entry in row `i 0`. -/
theorem col_entry (v : FVec Ideal S100000 .f32) (i : S100000x128.Idx) :
    broadcastInDim S100000x128 ![0, 1] bcast_S100000x1_S100000x128_0_1 (broadcastInDim S100000x1 ![0] bcast_S100000_S100000x1_0 v) i
      = v (ix1 (i 0)) := by
  rw [broadcastInDim_apply _ bcast_S100000x1_S100000x128_0_1 _ i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ bcast_S100000_S100000x1_0 v (ix2 (i 0) (0 : Fin 1)) (ix1 (i 0)) (fun a => match a with
    | ⟨0, _⟩ => by show (i 0).val = if (100000 : Nat) = 1 then 0 else (i 0).val; rw [if_neg (by decide)])

/-- The scalar one broadcast over the nodes reads one everywhere. -/
theorem ones_entry (j : S100000.Idx) :
    broadcastInDim S100000 ![] bcast_S_S100000 (constant (F := Ideal) S_ .f32 0x3F800000#32) j = Cert.Gin.one :=
  broadcastInDim_apply _ bcast_S_S100000 (constant (F := Ideal) S_ .f32 0x3F800000#32) j (fun a => a.elim0) (fun a => a.elim0)

/-- The host's quotient at an index is the extended reals' quotient of the entries. -/
theorem hostDivf_entry {s : Shape} {φ : FTy} (a b : FVec Ideal s φ) (i : s.Idx) : Host.divf a b i = Ideal.div (a i) (b i) := rfl

/-- Times the reciprocal of the clamped in-degree is divided by the clamped in-degree: at every entry the law
    `m · (1 / max(d, 1)) = m / max(d, 1)`. -/
theorem aggK_eq_aggDiv (x : FVec Ideal S100000x128 .f32) (src dst : IVec S1600000 32) :
    aggK (F := Ideal) x src dst = aggDiv (F := Ideal) x src dst := by
  funext i
  unfold aggK aggDiv recipCol
  rw [mulf_apply, col_entry, hostDivf_entry, hostDivf_entry, col_entry]
  unfold degMax
  rw [maximumf_apply, ones_entry]
  exact Cert.Gin.mul_recip_max _ _

end Cert.KernelIdeal.GinHost

end
-- ==== Proof.Body.lean ====
/-
  What each kernel body computes, entry by entry, at the extended reals.

  The body multiplies the 5000 x 128 block `1 · x + a` (both rounded to bf16, which is the identity on extended
  reals) by the 128 x 128 weights into a zero accumulator, adds the bias row to every row, and (first layer only)
  takes the maximum with zero.  A matrix product into zero is the plain sum over the contracted axis, so entry
  `(p, q)` of the block is `linAt` of row `p` of `x`, row `p` of `a`, column `q` of the weights and bias entry `q`.
-/
import proofs.«168655_j87814901334660_1_alg».proof.Proof.Gen.KernelIdeal.Skeleton
import proofs.«168655_j87814901334660_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.GinBody

open Cert.KernelIdeal Cert.KernelIdeal.Gen
open Idealize.ShloMosaic Idealize.ShloMosaic.TcCoe Idealize.ShloMosaic.ValueIdx Idealize.SL.Sem

/-! ## The product's operand indices: output entry `(p, q)` and contraction index `k` read `(p, k)` and `(k, q)` -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into the zero accumulator, at entry `(p, q)`: the sum over the 128 contracted
    features of the left operand at `(p, k)` times the right operand at `(k, q)`. -/
theorem matmul_entry {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row broadcast down the block reads its entry `q` in every row. -/
theorem bias_entry (bb : FVec Ideal S1x128 .f32) (p : Fin 5000) (q : Fin 128) :
    broadcastTo S5000x128 bb broadcasts_S1x128_S5000x128 (ix2 p q) = bb (ix2 (0 : Fin 1) q) :=
  broadcastTo_apply bb broadcasts_S1x128_S5000x128 (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-! ## The two bodies' stored values at an entry -/

/-- First layer: the rectified `linAt`. -/
theorem pay0_entry (x0 x1 : Vec Ideal S5000x128 .f32) (w : Vec Ideal S128x128 .f32) (bb : Vec Ideal S1x128 .f32) (p : Fin 5000) (q : Fin 128) :
    k0_pay1 (F := Ideal) x0 x1 w bb (ix2 p q)
      = max (Cert.Gin.linAt (fun k => x0 (ix2 p k)) (fun k => x1 (ix2 p k)) w (bb (ix2 (0 : Fin 1) q)) q) Cert.Gin.zero := by
  unfold k0_pay1
  simp only [shapeCast_self]
  rw [maximumf_apply, addf_apply, matmul_entry, bias_entry]
  rfl

/-- Second layer: `linAt` itself. -/
theorem pay1_entry (x0 x1 : Vec Ideal S5000x128 .f32) (w : Vec Ideal S128x128 .f32) (bb : Vec Ideal S1x128 .f32) (p : Fin 5000) (q : Fin 128) :
    k1_pay1 (F := Ideal) x0 x1 w bb (ix2 p q)
      = Cert.Gin.linAt (fun k => x0 (ix2 p k)) (fun k => x1 (ix2 p k)) w (bb (ix2 (0 : Fin 1) q)) q := by
  unfold k1_pay1
  simp only [shapeCast_self]
  rw [addf_apply, matmul_entry, bias_entry]
  rfl

end Cert.KernelIdeal.GinBody

end
-- ==== Proof.RegionValue.lean ====
/-
  Each pallas_call's output array as ONE function of the arrays it finds: the specification's layer.

  Grid point `t` of either call reads rows `5000 t … 5000 t + 4999` of the features and of the means, the whole
  weights and the whole bias row, and writes the same rows of the output.  What it writes is the layer restricted
  to those rows (the body's stored value at an entry is `linAt` of the rows it loaded), and the twenty row blocks
  cover the array, so after the call the output array is the layer of the input arrays.
-/
import proofs.«168655_j87814901334660_1_alg».proof.Proof.Gen.KernelIdeal.Frame
import proofs.«168655_j87814901334660_1_alg».proof.Proof.Body
import proofs.«168655_j87814901334660_1_alg».proof.Proof.Spec
import Idealize.ShloMosaic.Lib.Pipeline.Value
import Idealize.ShloMosaic.Lib.ValueIdx

set_option maxRecDepth 16384

noncomputable section

namespace Cert.KernelIdeal.GinRegion

open Cert.KernelIdeal Cert.KernelIdeal.Gen Cert.KernelIdeal.GinBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- Its index maps over the grid: the row windows move with the point, the weights and the bias stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the features' block at point `t` is row `5000 t + p` of the features. -/
theorem xrow0 (c : Dev nD) (t : Fin cfg0.N) (p : Fin 5000) (k : Fin 128) (r : Fin 100000) (hr : r.val = t.val * 5000 + p.val) :
    (iblk0 V c 0 t : Vec Ideal S5000x128 .f32) (ix2 p k) = (V c main_arg0 : S100000x128.Idx → EReal) (ix2 r k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- Row `p` of the means' block at point `t` is row `5000 t + p` of the means. -/
theorem arow0 (c : Dev nD) (t : Fin cfg0.N) (p : Fin 5000) (k : Fin 128) (r : Fin 100000) (hr : r.val = t.val * 5000 + p.val) :
    (iblk0 V c 1 t : Vec Ideal S5000x128 .f32) (ix2 p k) = (V c main_v20 : S100000x128.Idx → EReal) (ix2 r k) := by
  obtain ⟨-, -, e0, e1, -⟩ := idx0 t
  unfold iblk0
  rw [View.read_apply]
  show V c main_v20 _ = V c main_v20 _
  congr 1
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- The weights' block at every point is the whole weights. -/
theorem wblk0 (c : Dev nD) (t : Fin cfg0.N) (y : S128x128.Idx) :
    (iblk0 V c 2 t : Vec Ideal S128x128 .f32) y = (V c main_arg3 : S128x128.Idx → EReal) y := by
  obtain ⟨-, -, -, -, e0, e1, -⟩ := idx0 t
  unfold iblk0
  rw [View.read_apply]
  show V c main_arg3 _ = V c main_arg3 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The bias row's block at every point is the whole bias row. -/
theorem bblk0 (c : Dev nD) (t : Fin cfg0.N) (y : S1x128.Idx) :
    (iblk0 V c 3 t : Vec Ideal S1x128 .f32) y = (V c main_v21 : S1x128.Idx → EReal) y := by
  obtain ⟨-, -, -, -, -, -, e0, e1, -⟩ := idx0 t
  unfold iblk0
  rw [View.read_apply]
  show V c main_v21 _ = V c main_v21 _
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

/-- WHAT POINT `t` WRITES BACK is its rows of the rectified layer of the arrays the call finds. -/
theorem flushed0_eq (c : Dev nD) (t : Fin cfg0.N) :
    (dat0 V c).flushed 4 t = ((cfg0.win 4).blk t).view.read (Elt Ideal)
      (Cert.Gin.relu (Cert.Gin.lin (V c main_arg0) (V c main_v20) (V c main_arg3) (V c main_v21))) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hN : cfg0.N = 20 := N_0
  have hr : t.val * 5000 + p.val < 100000 := by have := t.isLt; have := p.isLt; omega
  obtain ⟨-, -, -, -, -, -, -, -, e0, e1⟩ := idx0 t
  have hemb : ((cfg0.win 4).blk t).view.emb (ix2 p q) = (ix2 (⟨t.val * 5000 + p.val, hr⟩ : Fin 100000) q : S100000x128.Idx) := by
    funext a
    apply Fin.ext
    match a with
    | ⟨0, _⟩ => show win0_4.index t 0 * 5000 + 1 * p.val = t.val * 5000 + p.val; rw [e0]; omega
    | ⟨1, _⟩ => show win0_4.index t 1 * 128 + 1 * q.val = q.val; rw [e1]; omega
  show k0_pay1 (iblk0 V c 0 t) (iblk0 V c 1 t) (iblk0 V c 2 t) (iblk0 V c 3 t) (ix2 p q)
    = Cert.Gin.relu (Cert.Gin.lin (V c main_arg0) (V c main_v20) (V c main_arg3) (V c main_v21)) (((cfg0.win 4).blk t).view.emb (ix2 p q))
  rw [hemb]
  refine (pay0_entry (iblk0 V c 0 t) (iblk0 V c 1 t) (iblk0 V c 2 t) (iblk0 V c 3 t) p q).trans ?_
  have hx : (fun k => (iblk0 V c 0 t : Vec Ideal S5000x128 .f32) (ix2 p k))
      = fun k => (V c main_arg0 : S100000x128.Idx → EReal) (ix2 (⟨t.val * 5000 + p.val, hr⟩ : Fin 100000) k) :=
    funext fun k => xrow0 V c t p k _ rfl
  have ha : (fun k => (iblk0 V c 1 t : Vec Ideal S5000x128 .f32) (ix2 p k))
      = fun k => (V c main_v20 : S100000x128.Idx → EReal) (ix2 (⟨t.val * 5000 + p.val, hr⟩ : Fin 100000) k) :=
    funext fun k => arow0 V c t p k _ rfl
  have hw : (iblk0 V c 2 t : Vec Ideal S128x128 .f32) = (V c main_arg3 : S128x128.Idx → EReal) := funext fun y => wblk0 V c t y
  rw [hx, ha, hw, bblk0 V c t (ix2 (0 : Fin 1) q)]
  rfl

/-- An index of the output array is in point `t`'s block iff each coordinate is in the block's range. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v22).slice (win0_4.rect t)).set ↔ _
  rw [View.set_slice_whole, Rect.mem_set_unit]
  exact Iff.rfl

/-- Row `r` of the output is written at point `r / 5000`: the twenty row blocks cover the array. -/
theorem cover0 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, e0, e1⟩ := idx0 ⟨(i 0).val / 5000, ht⟩
  refine ⟨⟨(i 0).val / 5000, ht⟩, flush0_4 _, ?_⟩
  rw [mem_blk0]
  intro a
  match a with
  | ⟨0, _⟩ =>
    show win0_4.index ⟨(i 0).val / 5000, ht⟩ 0 * 5000 ≤ (i 0).val ∧ (i 0).val < win0_4.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_4.index ⟨(i 0).val / 5000, ht⟩ 1 * 128 ≤ (i 1).val ∧ (i 1).val < win0_4.index ⟨(i 0).val / 5000, ht⟩ 1 * 128 + 128
    rw [e1]
    omega

/-- AFTER THE FIRST CALL its output array is the rectified layer of the arrays it found. -/
theorem region0_array (c : Dev nD) :
    (dat0 V c).arrAt 4 cfg0.N = Cert.Gin.relu (Cert.Gin.lin (V c main_arg0) (V c main_v20) (V c main_arg3) (V c main_v21)) :=
  (dat0 V c).arrAt_eq_of_cover 4 _ (fun t _ => flushed0_eq V c t) cover0

/-! ## The second call: the same windows over its own arrays, and no rectifier -/

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem xrow1 (c : Dev nD) (t : Fin cfg1.N) (p : Fin 5000) (k : Fin 128) (r : Fin 100000) (hr : r.val = t.val * 5000 + p.val) :
    (iblk1 V c 0 t : Vec Ideal S5000x128 .f32) (ix2 p k) = (V c main_v22 : S100000x128.Idx → EReal) (ix2 r k) := by
  obtain ⟨e0, e1, -⟩ := idx1 t
  unfold iblk1
  rw [View.read_apply]
  show V c main_v22 _ = V c main_v22 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

theorem arow1 (c : Dev nD) (t : Fin cfg1.N) (p : Fin 5000) (k : Fin 128) (r : Fin 100000) (hr : r.val = t.val * 5000 + p.val) :
    (iblk1 V c 1 t : Vec Ideal S5000x128 .f32) (ix2 p k) = (V c main_v34 : S100000x128.Idx → EReal) (ix2 r k) := by
  obtain ⟨-, -, e0, e1, -⟩ := idx1 t
  unfold iblk1
  rw [View.read_apply]
  show V c main_v34 _ = V c main_v34 _
  congr 1
  funext a
  apply Fin.ext
  match a with
  | ⟨0, _⟩ => show win1_1.index t 0 * 5000 + 1 * p.val = r.val; rw [e0, hr]; omega
  | ⟨1, _⟩ => show win1_1.index t 1 * 128 + 1 * k.val = k.val; rw [e1]; omega

theorem wblk1 (c : Dev nD) (t : Fin cfg1.N) (y : S128x128.Idx) :
    (iblk1 V c 2 t : Vec Ideal S128x128 .f32) y = (V c main_arg5 : S128x128.Idx → EReal) y := by
  obtain ⟨-, -, -, -, e0, e1, -⟩ := idx1 t
  unfold iblk1
  rw [View.read_apply]
  show V c main_arg5 _ = V c main_arg5 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

theorem bblk1 (c : Dev nD) (t : Fin cfg1.N) (y : S1x128.Idx) :
    (iblk1 V c 3 t : Vec Ideal S1x128 .f32) y = (V c main_v35 : S1x128.Idx → EReal) y := by
  obtain ⟨-, -, -, -, -, -, e0, e1, -⟩ := idx1 t
  unfold iblk1
  rw [View.read_apply]
  show V c main_v35 _ = V c main_v35 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- WHAT POINT `t` WRITES BACK is its rows of the layer of the arrays the call finds. -/
theorem flushed1_eq (c : Dev nD) (t : Fin cfg1.N) :
    (dat1 V c).flushed 4 t = ((cfg1.win 4).blk t).view.read (Elt Ideal)
      (Cert.Gin.lin (V c main_v22) (V c main_v34) (V c main_arg5) (V c main_v35)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hN : cfg1.N = 20 := N_1
  have hr : t.val * 5000 + p.val < 100000 := by have := t.isLt; have := p.isLt; omega
  obtain ⟨-, -, -, -, -, -, -, -, e0, e1⟩ := idx1 t
  have hemb : ((cfg1.win 4).blk t).view.emb (ix2 p q) = (ix2 (⟨t.val * 5000 + p.val, hr⟩ : Fin 100000) q : S100000x128.Idx) := by
    funext a
    apply Fin.ext
    match a with
    | ⟨0, _⟩ => show win1_4.index t 0 * 5000 + 1 * p.val = t.val * 5000 + p.val; rw [e0]; omega
    | ⟨1, _⟩ => show win1_4.index t 1 * 128 + 1 * q.val = q.val; rw [e1]; omega
  show k1_pay1 (iblk1 V c 0 t) (iblk1 V c 1 t) (iblk1 V c 2 t) (iblk1 V c 3 t) (ix2 p q)
    = Cert.Gin.lin (V c main_v22) (V c main_v34) (V c main_arg5) (V c main_v35) (((cfg1.win 4).blk t).view.emb (ix2 p q))
  rw [hemb]
  refine (pay1_entry (iblk1 V c 0 t) (iblk1 V c 1 t) (iblk1 V c 2 t) (iblk1 V c 3 t) p q).trans ?_
  have hx : (fun k => (iblk1 V c 0 t : Vec Ideal S5000x128 .f32) (ix2 p k))
      = fun k => (V c main_v22 : S100000x128.Idx → EReal) (ix2 (⟨t.val * 5000 + p.val, hr⟩ : Fin 100000) k) :=
    funext fun k => xrow1 V c t p k _ rfl
  have ha : (fun k => (iblk1 V c 1 t : Vec Ideal S5000x128 .f32) (ix2 p k))
      = fun k => (V c main_v34 : S100000x128.Idx → EReal) (ix2 (⟨t.val * 5000 + p.val, hr⟩ : Fin 100000) k) :=
    funext fun k => arow1 V c t p k _ rfl
  have hw : (iblk1 V c 2 t : Vec Ideal S128x128 .f32) = (V c main_arg5 : S128x128.Idx → EReal) := funext fun y => wblk1 V c t y
  rw [hx, ha, hw, bblk1 V c t (ix2 (0 : Fin 1) q)]
  rfl

theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v36).slice (win1_4.rect t)).set ↔ _
  rw [View.set_slice_whole, Rect.mem_set_unit]
  exact Iff.rfl

theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e0, e1⟩ := idx1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ 0 * 5000 ≤ (i 0).val ∧ (i 0).val < win1_4.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_4.index ⟨(i 0).val / 5000, ht⟩ 1 * 128 ≤ (i 1).val ∧ (i 1).val < win1_4.index ⟨(i 0).val / 5000, ht⟩ 1 * 128 + 128
    rw [e1]
    omega

/-- AFTER THE SECOND CALL its output array is the layer of the arrays it found. -/
theorem region1_array (c : Dev nD) :
    (dat1 V c).arrAt 4 cfg1.N = Cert.Gin.lin (V c main_v22) (V c main_v34) (V c main_arg5) (V c main_v35) :=
  (dat1 V c).arrAt_eq_of_cover 4 _ (fun t _ => flushed1_eq V c t) cover1

end Cert.KernelIdeal.GinRegion

end
-- ==== Proof.KernelValue.lean ====
/-
  The kernel program's result buffer, at the extended reals, as the two-layer network of the specification.

  The second call's output array is the layer of what the second call finds; what it finds is the first call's
  output (the rectified layer of the arguments and their means), that output's means, the second weights and the
  second bias row.
-/
import proofs.«168655_j87814901334660_1_alg».proof.Proof.Gen.KernelIdeal.Frame
import proofs.«168655_j87814901334660_1_alg».proof.Proof.HostValue
import proofs.«168655_j87814901334660_1_alg».proof.Proof.RegionValue
import proofs.«168655_j87814901334660_1_alg».proof.Proof.Spec

noncomputable section

namespace Cert.KernelIdeal.GinValue

open Cert.KernelIdeal Cert.KernelIdeal.Gen Cert.KernelIdeal.GinHost Cert.KernelIdeal.GinRegion
open Idealize.ShloMosaic Idealize.ShloMosaic.TcCoe Idealize.SL.Sem

variable (m : (ℓ : Loc nD τ sig) → Buf (Elt Ideal) ℓ) (ρ : Dev nD → PrngReg)

/-- The first call's output: the rectified first layer of the features and their means. -/
def hidden (c : Dev nD) : (⟨S100000x128, .f32⟩ : BufTy).Contents (Elt Ideal) :=
  Cert.Gin.relu (Cert.Gin.lin (m ((c : Thread nD τ).loc main_arg0))
    (aggK (F := Ideal) (m ((c : Thread nD τ).loc main_arg0)) (m ((c : Thread nD τ).loc main_arg1)) (m ((c : Thread nD τ).loc main_arg2)))
    (m ((c : Thread nD τ).loc main_arg3)) (biasRow (F := Ideal) (m ((c : Thread nD τ).loc main_arg4))))

theorem hidden_eq (c : Dev nD) : (dat0 (V1 m ρ) c).arrAt 4 cfg0.N = hidden m c := by
  rw [region0_array (V1 m ρ) c, entry0_x, entry0_agg, entry0_w, entry0_b]
  rfl

/-- The network's result: the second layer of the first call's output and its means. -/
def result (c : Dev nD) : (⟨S100000x128, .f32⟩ : BufTy).Contents (Elt Ideal) :=
  Cert.Gin.lin (hidden m c)
    (aggK (F := Ideal) (hidden m c) (m ((c : Thread nD τ).loc main_arg1)) (m ((c : Thread nD τ).loc main_arg2)))
    (m ((c : Thread nD τ).loc main_arg5)) (biasRow (F := Ideal) (m ((c : Thread nD τ).loc main_arg6)))

/-- The result buffer after the run is the network's result. -/
theorem result_eq (c : Dev nD) : V4 m ρ c main_v36 = result m c := by
  refine (W4_arr m ρ c 4).trans ?_
  rw [region1_array (V3 m ρ) c, entry1_x, entry1_agg, entry1_w, entry1_b, hidden_eq]
  rfl

end Cert.KernelIdeal.GinValue

end
-- ==== Proof.RefValue.lean ====
/-
  The reference's result, at the extended reals, as the two-layer network of the specification.

  Its composed term is cut into named pieces: the summed messages of a node (a gather of the source rows scattered
  onto the destination nodes), the clamped in-degree `max(deg, 1)`, the neighbourhood mean (their quotient), one
  linear layer (`dot_general` of `1 · x + a` with the weights, plus the bias broadcast down the rows) and the
  rectifier.  The gather and the scatters are never opened: both programs apply the same ones to the same arrays.
  A linear layer read at an entry is the specification's `lin`: a `dot_general` at the extended reals is the sum
  over the contracted axis.
-/
import proofs.«168655_j87814901334660_1_alg».proof.Proof.Gen.ReferenceIdeal.Run
import proofs.«168655_j87814901334660_1_alg».proof.Proof.Gen.ReferenceIdeal.Read
import proofs.«168655_j87814901334660_1_alg».proof.Proof.Spec

noncomputable section

open scoped BigOperators

namespace Cert.ReferenceIdeal.GinRef

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

section Pieces
variable {F : FTy → Type} [FloatOps F]

/-- A node's summed messages: row `src[e]` (negative indices wrapped) of `x` for every edge `e`, added onto node `dst[e]`. -/
def msgSum (x : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- A node's in-degree (a one added per incoming edge), clamped below at one. -/
def degMax (dst : (⟨S1600000, .i32⟩ : BufTy).Contents (Elt F)) : (⟨S100000, .f32⟩ : BufTy).Contents (Elt F) :=
  maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))

/-- The neighbourhood mean: the summed messages divided by the clamped in-degree, row by row. -/
def agg (x : (⟨S100000x128, .f32⟩ : BufTy).Contents (Elt F)) (src dst : (⟨S1600000, .i32⟩ : BufTy).Contents (Elt F)) :
    (⟨S100000x128, .f32⟩ : BufTy).Contents (Elt F) :=
  Host.divf (msgSum x src dst) (broadcastInDim S100000x128 ![0, 1] bcast_S100000x1_S100000x128_0_1 (broadcastInDim S100000x1 ![0] bcast_S100000_S100000x1_0 (degMax (F := F) dst)))

/-- The bias as a one-row array. -/
def biasRow (b : (⟨S128, .f32⟩ : BufTy).Contents (Elt F)) : (⟨S1x128, .f32⟩ : BufTy).Contents (Elt F) :=
  broadcastInDim S1x128 ![1] bcast_S128_S1x128_1 b

/-- One linear layer as the reference spells it. -/
def linR (x a : (⟨S100000x128, .f32⟩ : BufTy).Contents (Elt F)) (w : (⟨S128x128, .f32⟩ : BufTy).Contents (Elt F))
    (brow : (⟨S1x128, .f32⟩ : BufTy).Contents (Elt F)) : (⟨S100000x128, .f32⟩ : BufTy).Contents (Elt F) :=
  addf (Host.dotGeneral dot_S100000x128_S128x128_S100000x128_1_0_0_1_n_n none (addf (mulf (broadcastInDim S100000x128 ![] bcast_S_S100000x128 (constant S_ .f32 0x3F800000#32)) x) a) w) (broadcastInDim S100000x128 ![0, 1] bcast_S1x128_S100000x128_0_1 brow)

/-- The rectifier as the reference spells it. -/
def reluR (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The two layers composed, over the seven arguments. -/
def net (x : (⟨S100000x128, .f32⟩ : BufTy).Contents (Elt F)) (src dst : (⟨S1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  linR (reluR (linR x (agg x src dst) w1 (biasRow b1))) (agg (reluR (linR x (agg x src dst) w1 (biasRow b1))) src dst) w2 (biasRow b2)

set_option maxRecDepth 8192 in
/-- The run's result term is those pieces composed: the same term, folded. -/
theorem res_eq_net (m : (ℓ : Loc nD τ sig) → Buf (Elt F) ℓ) (c : Dev nD) :
    Value.res_main_v52 m c = net (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_main_v52 net linR reluR agg biasRow msgSum degMax
  rfl

end Pieces

/-! ## The pieces at an entry, at the extended reals -/

/-- The reference's `dot_general` at entry `i`: the sum over the 128 contracted features. -/
theorem dot_entry (y : FVec Ideal S100000x128 .f32) (w : FVec Ideal S128x128 .f32) (i : S100000x128.Idx) :
    Host.dotGeneral dot_S100000x128_S128x128_S100000x128_1_0_0_1_n_n none y w i = ∑ k : Fin 128, y (ix2 (i 0) k) * w (ix2 k (i 1)) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (i 0) k := funext fun a => Fin.ext (by
    match a with
    | ⟨0, _⟩ => exact lhs_main_v22_0 _ _
    | ⟨1, _⟩ => exact (lhs_main_v22_1 _ _).trans hk)
  have er : dot_S100000x128_S128x128_S100000x128_1_0_0_1_n_n.rhsIdx i ((ValueIdx.contrEquiv1 dot_S100000x128_S128x128_S100000x128_1_0_0_1_n_n 128 rfl rfl).symm k) = ix2 k (i 1) := funext fun a => Fin.ext (by
    match a with
    | ⟨0, _⟩ => exact (rhs_main_v22_0 _ _).trans hk
    | ⟨1, _⟩ => exact rhs_main_v22_1 _ _)
  rw [el, er]
  rfl

/-- A one-row array broadcast down the rows reads its entry in column `i 1`. -/
theorem brow_entry (brow : FVec Ideal S1x128 .f32) (i : S100000x128.Idx) :
    broadcastInDim S100000x128 ![0, 1] bcast_S1x128_S100000x128_0_1 brow i = brow (ix2 (0 : Fin 1) (i 1)) :=
  broadcastInDim_apply _ bcast_S1x128_S100000x128_0_1 brow i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The scalar one broadcast over the node array reads one everywhere. -/
theorem ones_entry (i : S100000x128.Idx) :
    broadcastInDim S100000x128 ![] bcast_S_S100000x128 (constant (F := Ideal) S_ .f32 0x3F800000#32) i = Cert.Gin.one :=
  broadcastInDim_apply _ bcast_S_S100000x128 (constant (F := Ideal) S_ .f32 0x3F800000#32) i (fun a => a.elim0) (fun a => a.elim0)

/-- The reference's linear layer is the specification's. -/
theorem linR_eq (x a : FVec Ideal S100000x128 .f32) (w : FVec Ideal S128x128 .f32) (brow : FVec Ideal S1x128 .f32) :
    linR (F := Ideal) x a w brow = Cert.Gin.lin x a w brow := by
  funext i
  unfold linR Cert.Gin.lin Cert.Gin.linAt
  rw [addf_apply, dot_entry, brow_entry]
  refine congrArg (· + _) (Finset.sum_congr rfl fun k _ => ?_)
  rw [addf_apply, mulf_apply, ones_entry]

/-- The reference's rectifier is the specification's. -/
theorem reluR_eq (h : FVec Ideal S100000x128 .f32) :
    reluR (F := Ideal) h = Cert.Gin.relu h := by
  funext i
  unfold reluR Cert.Gin.relu
  rw [maximumf_apply]
  exact congrArg (max (h i)) (broadcastInDim_apply _ bcast_S_S100000x128 (constant (F := Ideal) S_ .f32 0x00000000#32) i (fun a => a.elim0) (fun a => a.elim0))

end Cert.ReferenceIdeal.GinRef

end
-- ==== Proof.Bridge.lean ====
/-
  The kernel program's pieces and the reference's are the same functions.

  The neighbourhood mean: the kernel program's product with the reciprocal column is the quotient form (the law
  `m · (1 / max(d, 1)) = m / max(d, 1)`), and the quotient form is the reference's own term.  The bias row: reshaping
  [128] to [1, 128] and broadcasting [128] along a new leading axis both read entry `q` at `(0, q)`.
-/
import proofs.«168655_j87814901334660_1_alg».proof.Proof.HostValue
import proofs.«168655_j87814901334660_1_alg».proof.Proof.RefValue
import Idealize.ShloMosaic.Lib.Pipeline.Value
import Idealize.ShloMosaic.Lib.ValueIdx

noncomputable section

namespace Cert.Gin.Bridge

open Idealize.ShloMosaic Idealize.ShloMosaic.TcCoe Idealize.ShloMosaic.ValueIdx

/-- The kernel program's neighbourhood mean is the reference's. -/
theorem agg_eq (x : FVec Ideal Cert.KernelIdeal.S100000x128 .f32) (src dst : IVec Cert.KernelIdeal.S1600000 32) :
    Cert.KernelIdeal.GinHost.aggK (F := Ideal) x src dst = Cert.ReferenceIdeal.GinRef.agg (F := Ideal) x src dst :=
  (Cert.KernelIdeal.GinHost.aggK_eq_aggDiv x src dst).trans rfl

/-- The kernel program's bias row is the reference's. -/
theorem biasRow_eq (b : FVec Ideal Cert.KernelIdeal.S128 .f32) :
    Cert.KernelIdeal.GinHost.biasRow (F := Ideal) b = Cert.ReferenceIdeal.GinRef.biasRow (F := Ideal) b := by
  funext j
  have hj0 : (j 0).val = 0 := by have := idx2_lt0 (n0 := 1) (n1 := 128) j; omega
  unfold Cert.KernelIdeal.GinHost.biasRow Cert.ReferenceIdeal.GinRef.biasRow
  rw [shapeCast_apply b _ j (ix1 (j 1)) (by
      rw [Shape.rowMajor_val_one, Shape.rowMajor_val_two]
      show (j 1).val = (j 0).val * 128 + (j 1).val
      omega)]
  exact (broadcastInDim_apply _ _ b j (ix1 (j 1)) (fun a => match a with
    | ⟨0, _⟩ => by show (j 1).val = if (128 : Nat) = 1 then 0 else (j 1).val; rw [if_neg (by decide)])).symm

end Cert.Gin.Bridge

end
-- ==== Proof.lean ====
/-
  A two-layer graph network, `out = L2(relu(L1(x)))` with `L(h) = (1 · h + mean(h)) · W + b` and `mean(h)` the
  average of `h` over a node's incoming edges (the summed messages over `max(deg, 1)`), computed two ways.

  The kernel program computes the summed messages and the reciprocal `1 / max(deg, 1)` on the host, multiplies them,
  and runs each layer's `(1 · h + a) · W + b` (and the first layer's rectifier) as a pallas_call over twenty blocks of
  5000 rows, the product on bf16-rounded operands.  The reference divides the summed messages by `max(deg, 1)` and
  takes one whole `dot_general` per layer.

  At the extended reals rounding is the identity and a matrix product is the plain sum over the 128 contracted
  features, so a block's rows of the product are the whole product's rows; and `m · (1 / y) = m / y` for every
  extended real `m` once `y = max(d, 1)` is nonzero, which it always is.  So both programs compute the same function
  of the seven arguments, entry by entry, and the precondition is never opened.  The gather and the scatter-adds are
  the same operations on the same arrays in both programs and are carried unopened.

  The frames of the two kernel programs are the generated launch over @main's four segments; the kernel program's
  value is read off the same launch with the result buffer kept in the post; the reference's frame and value are
  its generated run.  No rewrite was made when the kernel was idealized, so `preserves` has nothing to state.
-/
import proofs.«168655_j87814901334660_1_alg».proof.Defs
import proofs.«168655_j87814901334660_1_alg».proof.Proof.Gen.Kernel
import proofs.«168655_j87814901334660_1_alg».proof.Proof.Gen.Kernel.Skeleton
import proofs.«168655_j87814901334660_1_alg».proof.Proof.Gen.Kernel.Launch
import proofs.«168655_j87814901334660_1_alg».proof.Proof.Gen.Kernel.Points
import proofs.«168655_j87814901334660_1_alg».proof.Proof.Gen.Kernel.Frame
import proofs.«168655_j87814901334660_1_alg».proof.Proof.Gen.KernelIdeal
import proofs.«168655_j87814901334660_1_alg».proof.Proof.Gen.KernelIdeal.Skeleton
import proofs.«168655_j87814901334660_1_alg».proof.Proof.Gen.KernelIdeal.Launch
import proofs.«168655_j87814901334660_1_alg».proof.Proof.Gen.KernelIdeal.Points
import proofs.«168655_j87814901334660_1_alg».proof.Proof.Gen.KernelIdeal.Frame
import proofs.«168655_j87814901334660_1_alg».proof.Proof.Gen.ReferenceIdeal
import proofs.«168655_j87814901334660_1_alg».proof.Proof.Gen.Pre_finite_inputs
import proofs.«168655_j87814901334660_1_alg».proof.Proof.Gen.ReferenceIdeal.Run
import proofs.«168655_j87814901334660_1_alg».proof.Proof.Gen.ReferenceIdeal.Read
import proofs.«168655_j87814901334660_1_alg».proof.Proof.KernelRun
import proofs.«168655_j87814901334660_1_alg».proof.Proof.KernelValue
import proofs.«168655_j87814901334660_1_alg».proof.Proof.RefValue
import proofs.«168655_j87814901334660_1_alg».proof.Proof.Bridge
import Idealize.ShloMosaic.Adequacy
import Idealize.ShloMosaic.Init

noncomputable section

namespace Cert.Proof

open Idealize.ShloMosaic Idealize.ShloMosaic.TcCoe Idealize.SL.Sem

/-- The reference's network on the kernel program's arguments is the kernel program's result: layer by layer the
    reference's spelling is the specification's, the two means agree and the two bias rows agree. -/
theorem net_eq_result (m : (ℓ : Loc Cert.KernelIdeal.nD Cert.KernelIdeal.τ Cert.KernelIdeal.sig) → Buf (Elt Ideal) ℓ) (c : Dev Cert.KernelIdeal.nD) :
    Cert.ReferenceIdeal.GinRef.net (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.GinValue.result m c := by
  unfold Cert.ReferenceIdeal.GinRef.net Cert.KernelIdeal.GinValue.result Cert.KernelIdeal.GinValue.hidden
  simp only [Cert.ReferenceIdeal.GinRef.linR_eq, Cert.ReferenceIdeal.GinRef.reluR_eq, ← Cert.Gin.Bridge.agg_eq, ← Cert.Gin.Bridge.biasRow_eq]

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the network's result of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.V4 m ρ c Cert.KernelIdeal.main_v36, Cert.KernelIdeal.GenP.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.GinRef.res_eq_net, a0, a1, a2, a3, a4, a5, a6]
  exact (net_eq_result m c).trans (Cert.KernelIdeal.GinValue.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
